-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x64, .f32⟩
  | .local _ .vmem, ⟨8, _⟩ => ⟨S2000x64, .f32⟩
  | .local _ .vmem, ⟨9, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The function both programs compute.

  A two-layer graph convolution over 50000 nodes. The edge list has 800000 directed edges (row 0 of the edge array the
  sources, row 1 the targets), and every node gets a self-loop, so there are 850000 edges in all:
      src = edge[0] ++ (0, 1, …, 49999),      dst = edge[1] ++ (0, 1, …, 49999).
  The degree of a node counts the edges that point at it, deg = Σ_{e : dst e = n} 1, and each edge is weighted by
      norm e = dinv (src e) · dinv (dst e),     dinv n = 1 / √(deg n) where deg n > 0, and 0 elsewhere.
  One layer takes node features h (already multiplied by the layer's weight matrix) to
      layer h b = (n ↦ Σ_{e : dst e = n} h (src e) · norm e) + b,
  a gather along the sources, a scaling of each gathered row, a scatter-add along the targets, and the bias added to every row.
  The whole network is
      out = layer₆₄ (relu (layer₂₅₆ (x · W₁) b₁) · W₂) b₂.
  An index read by a gather is first normalised as the array-indexing convention has it: a negative index has the extent added.

  Everything except the two matrix products is stated for ANY float family: the two programs apply the very same
  operations there, so nothing about them is ever opened. The matrix products are stated at the ideal family, where a
  product of a [50000, 256] matrix with a [256, n] matrix is, entry by entry, the sum over the 256 contracted positions.
-/
import proofs.«112327_j81174881894972_1_alg».proof.KernelIdeal
import Idealize.ShloMosaic.PureOps.Ideal
import Idealize.ShloMosaic.Lib.ValueIdx

noncomputable section

open scoped BigOperators

namespace Cert.Gcn

open Idealize.ShloMosaic Idealize.ShloMosaic.ValueIdx Cert.KernelIdeal Cert.KernelIdeal.Facts₀

variable {F : FTy → Type} [FloatOps F] [Cert.KernelIdeal.Facts]

/-! ## The edge list with its self-loops, and the index normalisation -/

/-- The sources: row 0 of the edge array, then every node once. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The targets: row 1 of the edge array, then every node once. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative index counts from the end: it has the extent 50000 added. -/
def wrap (i : (⟨S850000, .i32⟩ : BufTy).Contents (Elt F)) : (⟨S850000, .i32⟩ : BufTy).Contents (Elt F) :=
  select (cmpi .slt i (broadcastInDim S850000 ![] bcast_S_S850000 (constantI S_ 32 0#32))) (addi i (broadcastInDim S850000 ![] bcast_S_S850000 (constantI S_ 32 50000#32))) i

/-- An index vector as the one-column array a gather or a scatter takes. -/
def col (i : (⟨S850000, .i32⟩ : BufTy).Contents (Elt F)) : (⟨S850000x1, .i32⟩ : BufTy).Contents (Elt F) :=
  broadcastInDim S850000x1 ![0] bcast_S850000_S850000x1_0 i

/-! ## The symmetric normalisation -/

/-- How many edges point at each node. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (col (F := F) (dstOf (F := F) e)) (broadcastInDim S850000 ![] bcast_S_S850000 (constant S_ .f32 0x3F800000#32))

/-- The inverse square root of the degree where it is positive, zero elsewhere. -/
def dinv (e : (⟨S2x800000, .i32⟩ : BufTy).Contents (Elt F)) : (⟨S50000, .f32⟩ : BufTy).Contents (Elt F) :=
  select (cmpf (F := F) .ogt (deg (F := F) e) (broadcastInDim S50000 ![] bcast_S_S50000 (constant S_ .f32 0x00000000#32))) (Host.rsqrt (deg (F := F) e)) (broadcastInDim S50000 ![] bcast_S_S50000 (id (constant S_ .f32 0x00000000#32)))

/-- Each edge's weight: the product of the two ends' inverse root degrees. -/
def norm (e : (⟨S2x800000, .i32⟩ : BufTy).Contents (Elt F)) : (⟨S850000, .f32⟩ : BufTy).Contents (Elt F) :=
  mulf (Host.gather gather_S50000_S850000x1_S850000_n_0_n_n_0_1_1 (dinv (F := F) e) (col (F := F) (wrap (F := F) (srcOf (F := F) e)))) (Host.gather gather_S50000_S850000x1_S850000_n_0_n_n_0_1_1 (dinv (F := F) e) (col (F := F) (wrap (F := F) (dstOf (F := F) e))))

/-! ## One layer, at each of the two widths -/

/-- Gather the rows of `h` along the sources, scale each by its edge's weight, add them up along the targets, add the bias: width 256. -/
def layer256 (e : (⟨S2x800000, .i32⟩ : BufTy).Contents (Elt F)) (b : (⟨S256, .f32⟩ : BufTy).Contents (Elt F))
    (h : (⟨S50000x256, .f32⟩ : BufTy).Contents (Elt F)) : (⟨S50000x256, .f32⟩ : BufTy).Contents (Elt F) :=
  addf (Host.scatterAdd scatter_S50000x256_S850000x1_S850000x256_1_0_0_1 (broadcastInDim S50000x256 ![] bcast_S_S50000x256 (constant S_ .f32 0x00000000#32)) (col (F := F) (dstOf (F := F) e)) (mulf (Host.gather gather_S50000x256_S850000x1_S850000x256_1_0_n_n_0_1_1256 h (col (F := F) (wrap (F := F) (srcOf (F := F) e)))) (broadcastInDim S850000x256 ![0, 1] bcast_S850000x1_S850000x256_0_1 (broadcastInDim S850000x1 ![0] bcast_S850000_S850000x1_0 (norm (F := F) e))))) (broadcastInDim S50000x256 ![0, 1] bcast_S1x256_S50000x256_0_1 (broadcastInDim S1x256 ![1] bcast_S256_S1x256_1 b))

/-- The rectifier: the larger of the entry and zero. -/
def relu (h : (⟨S50000x256, .f32⟩ : BufTy).Contents (Elt F)) : (⟨S50000x256, .f32⟩ : BufTy).Contents (Elt F) :=
  maximumf h (broadcastInDim S50000x256 ![] bcast_S_S50000x256 (constant S_ .f32 0x00000000#32))

/-- The same layer at width 64. -/
def layer64 (e : (⟨S2x800000, .i32⟩ : BufTy).Contents (Elt F)) (b : (⟨S64, .f32⟩ : BufTy).Contents (Elt F))
    (h : (⟨S50000x64, .f32⟩ : BufTy).Contents (Elt F)) : (⟨S50000x64, .f32⟩ : BufTy).Contents (Elt F) :=
  addf (Host.scatterAdd scatter_S50000x64_S850000x1_S850000x64_1_0_0_1 (broadcastInDim S50000x64 ![] bcast_S_S50000x64 (constant S_ .f32 0x00000000#32)) (col (F := F) (dstOf (F := F) e)) (mulf (Host.gather gather_S50000x64_S850000x1_S850000x64_1_0_n_n_0_1_164 h (col (F := F) (wrap (F := F) (srcOf (F := F) e)))) (broadcastInDim S850000x64 ![0, 1] bcast_S850000x1_S850000x64_0_1 (broadcastInDim S850000x1 ![0] bcast_S850000_S850000x1_0 (norm (F := F) e))))) (broadcastInDim S50000x64 ![0, 1] bcast_S1x64_S50000x64_0_1 (broadcastInDim S1x64 ![1] bcast_S64_S1x64_1 b))

/-! ## The two matrix products, at the ideal family -/

/-- Entry (r, c) of a [50000, 256] · [256, 256] product: the sum over the contracted position. -/
def mm256At (x : (⟨S50000x256, .f32⟩ : BufTy).Contents (Elt Ideal)) (w : (⟨S256x256, .f32⟩ : BufTy).Contents (Elt Ideal))
    (r : Fin 50000) (c : Fin 256) : EReal :=
  ∑ k : Fin 256, x (ix2 r k) * w (ix2 k c)

/-- The product as an array. -/
def mm256 (x : (⟨S50000x256, .f32⟩ : BufTy).Contents (Elt Ideal)) (w : (⟨S256x256, .f32⟩ : BufTy).Contents (Elt Ideal)) :
    (⟨S50000x256, .f32⟩ : BufTy).Contents (Elt Ideal) :=
  fun i => mm256At x w ⟨(i 0).val, idx2_lt0 i⟩ ⟨(i 1).val, idx2_lt1 i⟩

theorem mm256_ix2 (x : (⟨S50000x256, .f32⟩ : BufTy).Contents (Elt Ideal)) (w : (⟨S256x256, .f32⟩ : BufTy).Contents (Elt Ideal))
    (r : Fin 50000) (c : Fin 256) : mm256 x w (ix2 r c) = mm256At x w r c := rfl

/-- Entry (r, c) of a [50000, 256] · [256, 64] product. -/
def mm64At (x : (⟨S50000x256, .f32⟩ : BufTy).Contents (Elt Ideal)) (w : (⟨S256x64, .f32⟩ : BufTy).Contents (Elt Ideal))
    (r : Fin 50000) (c : Fin 64) : EReal :=
  ∑ k : Fin 256, x (ix2 r k) * w (ix2 k c)

/-- The product as an array. -/
def mm64 (x : (⟨S50000x256, .f32⟩ : BufTy).Contents (Elt Ideal)) (w : (⟨S256x64, .f32⟩ : BufTy).Contents (Elt Ideal)) :
    (⟨S50000x64, .f32⟩ : BufTy).Contents (Elt Ideal) :=
  fun i => mm64At x w ⟨(i 0).val, idx2_lt0 i⟩ ⟨(i 1).val, idx2_lt1 i⟩

theorem mm64_ix2 (x : (⟨S50000x256, .f32⟩ : BufTy).Contents (Elt Ideal)) (w : (⟨S256x64, .f32⟩ : BufTy).Contents (Elt Ideal))
    (r : Fin 50000) (c : Fin 64) : mm64 x w (ix2 r c) = mm64At x w r c := rfl

/-! ## The network -/

/-- The result array as one function of the six argument arrays. -/
def out (x : (⟨S50000x256, .f32⟩ : BufTy).Contents (Elt Ideal)) (e : (⟨S2x800000, .i32⟩ : BufTy).Contents (Elt Ideal))
    (w1 : (⟨S256x256, .f32⟩ : BufTy).Contents (Elt Ideal)) (b1 : (⟨S256, .f32⟩ : BufTy).Contents (Elt Ideal))
    (w2 : (⟨S256x64, .f32⟩ : BufTy).Contents (Elt Ideal)) (b2 : (⟨S64, .f32⟩ : BufTy).Contents (Elt Ideal)) :
    (⟨S50000x64, .f32⟩ : BufTy).Contents (Elt Ideal) :=
  layer64 (F := Ideal) e b2 (mm64 (relu (F := Ideal) (layer256 (F := Ideal) e b1 (mm256 x w1))) w2)

end Cert.Gcn

end
-- ==== Proof.HostStages.lean ====
/-
  The kernel program's host stretches, read one at a time, at any float family.

  The array contents at each boundary of the kernel program are a fold from the launch memory. Before the first product the
  host builds, from the edge array alone, the sources and targets (with the self-loops), the degree of every node, its
  inverse square root where positive, and every edge's weight; it leaves the argument arrays alone. Between the products it
  applies the first layer to whatever the first product left (gather, scale, scatter-add, bias) and rectifies it. After
  the second product it applies the same layer at width 64. Each statement below says that a boundary's contents at one
  array are the specification's function of the earlier boundary's contents: the operations are the same ones, so nothing
  about them is opened.
-/
import proofs.«112327_j81174881894972_1_alg».proof.Proof.Gen.KernelIdeal.Frame
import proofs.«112327_j81174881894972_1_alg».proof.Proof.Spec
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo
open Cert.Gcn

variable {F : FTy → Type} [FloatOps F]
variable (m : (ℓ : Loc nD τ sig) → Buf (Elt F) ℓ) (ρ : Dev nD → PrngReg)

/-! ## After the first host stretch: sources, targets, degree -/

theorem src1 (c : Dev nD) : W1 m ρ c (Proc.devRef .tc main_v3) = srcOf (F := F) (m ((c : Thread nD τ).loc main_arg1)) := by
  show StableHlo.after hostOps0 (W0 m ρ c) (Proc.devRef .tc main_v3) = _
  after_results
  rfl

theorem dst1 (c : Dev nD) : W1 m ρ c (Proc.devRef .tc main_v6) = dstOf (F := F) (m ((c : Thread nD τ).loc main_arg1)) := by
  show StableHlo.after hostOps0 (W0 m ρ c) (Proc.devRef .tc main_v6) = _
  after_results
  rfl

theorem deg1 (c : Dev nD) : W1 m ρ c (Proc.devRef .tc main_v10) = deg (F := F) (m ((c : Thread nD τ).loc main_arg1)) := by
  show StableHlo.after hostOps0 (W0 m ρ c) (Proc.devRef .tc main_v10) = _
  after_results
  rfl

theorem pos1 (c : Dev nD) : W1 m ρ c (Proc.devRef .tc main_v12)
    = cmpf (F := F) .ogt (deg (F := F) (m ((c : Thread nD τ).loc main_arg1))) (broadcastInDim S50000 ![] bcast_S_S50000 (constant S_ .f32 0x00000000#32)) := by
  show StableHlo.after hostOps0 (W0 m ρ c) (Proc.devRef .tc main_v12) = _
  after_results
  rfl

theorem rsqrt1 (c : Dev nD) : W1 m ρ c (Proc.devRef .tc main_v13) = Host.rsqrt (deg (F := F) (m ((c : Thread nD τ).loc main_arg1))) := by
  show StableHlo.after hostOps0 (W0 m ρ c) (Proc.devRef .tc main_v13) = _
  after_results
  rfl

theorem zero1 (c : Dev nD) : W1 m ρ c (Proc.devRef .tc main_cst_2) = constant S_ .f32 0x00000000#32 := by
  show StableHlo.after hostOps0 (W0 m ρ c) (Proc.devRef .tc main_cst_2) = _
  after_results

/-! ## Each later host stretch as a step from ANY contents that hold the right things at the arrays the stretch reads -/

section Steps

variable (W : Valuation τ sig (Elt F)) (e : (⟨S2x800000, .i32⟩ : BufTy).Contents (Elt F))

/-- The outlined `where`: from the degree's compare, its inverse root and a zero, the inverse root degree. -/
theorem dinv_step (h12 : W (Proc.devRef .tc main_v12) = cmpf (F := F) .ogt (deg (F := F) e) (broadcastInDim S50000 ![] bcast_S_S50000 (constant S_ .f32 0x00000000#32)))
    (h13 : W (Proc.devRef .tc main_v13) = Host.rsqrt (deg (F := F) e)) (hz : W (Proc.devRef .tc main_cst_2) = constant S_ .f32 0x00000000#32) :
    StableHlo.after hostOps0_1 W (Proc.devRef .tc main_v14) = dinv (F := F) e := by
  after_results
  rw [h12, h13, hz]
  rfl

theorem keep_src_where : StableHlo.after hostOps0_1 W (Proc.devRef .tc main_v3) = W (Proc.devRef .tc main_v3) := by after_results
theorem keep_dst_where : StableHlo.after hostOps0_1 W (Proc.devRef .tc main_v6) = W (Proc.devRef .tc main_v6) := by after_results

/-- The stretch up to the first product: from the inverse root degree, the sources and the targets, every edge's weight. -/
theorem norm_step (h14 : W (Proc.devRef .tc main_v14) = dinv (F := F) e) (h3 : W (Proc.devRef .tc main_v3) = srcOf (F := F) e)
    (h6 : W (Proc.devRef .tc main_v6) = dstOf (F := F) e) :
    StableHlo.after hostOps0_2 W (Proc.devRef .tc main_v29) = norm (F := F) e := by
  after_results_simp
  rw [h14, h3, h6]
  rfl

theorem keep_src_pre : StableHlo.after hostOps0_2 W (Proc.devRef .tc main_v3) = W (Proc.devRef .tc main_v3) := by after_results
theorem keep_dst_pre : StableHlo.after hostOps0_2 W (Proc.devRef .tc main_v6) = W (Proc.devRef .tc main_v6) := by after_results

/-- Between the products: the first layer of what the first product left, rectified. -/
theorem hidden_step (b : (⟨S256, .f32⟩ : BufTy).Contents (Elt F)) (h3 : W (Proc.devRef .tc main_v3) = srcOf (F := F) e) (h6 : W (Proc.devRef .tc main_v6) = dstOf (F := F) e)
    (h29 : W (Proc.devRef .tc main_v29) = norm (F := F) e) (hb : W (Proc.devRef .tc main_arg3) = b) :
    StableHlo.after hostOps1_1 (StableHlo.after hostOps1 W) (Proc.devRef .tc main_v47)
      = relu (F := F) (layer256 (F := F) e b (W (Proc.devRef .tc main_v30))) := by
  after_results_simp
  rw [h3, h6, h29, hb]
  rfl

theorem keep_src_mid : StableHlo.after hostOps1_1 (StableHlo.after hostOps1 W) (Proc.devRef .tc main_v3) = W (Proc.devRef .tc main_v3) := by after_results
theorem keep_dst_mid : StableHlo.after hostOps1_1 (StableHlo.after hostOps1 W) (Proc.devRef .tc main_v6) = W (Proc.devRef .tc main_v6) := by after_results
theorem keep_norm_mid : StableHlo.after hostOps1_1 (StableHlo.after hostOps1 W) (Proc.devRef .tc main_v29) = W (Proc.devRef .tc main_v29) := by after_results
theorem keep_w2_mid : StableHlo.after hostOps1_1 (StableHlo.after hostOps1 W) (Proc.devRef .tc main_arg4) = W (Proc.devRef .tc main_arg4) := by after_results
theorem keep_b2_mid : StableHlo.after hostOps1_1 (StableHlo.after hostOps1 W) (Proc.devRef .tc main_arg5) = W (Proc.devRef .tc main_arg5) := by after_results

/-- After the second product: the width-64 layer of what that product left. -/
theorem result_step (b : (⟨S64, .f32⟩ : BufTy).Contents (Elt F)) (h3 : W (Proc.devRef .tc main_v3) = srcOf (F := F) e) (h6 : W (Proc.devRef .tc main_v6) = dstOf (F := F) e)
    (h29 : W (Proc.devRef .tc main_v29) = norm (F := F) e) (hb : W (Proc.devRef .tc main_arg5) = b) :
    StableHlo.after hostOps2 W (Proc.devRef .tc main_v64) = layer64 (F := F) e b (W (Proc.devRef .tc main_v48)) := by
  after_results_simp
  rw [h3, h6, h29, hb]
  rfl

end Steps

/-! ## After the outlined `where`: the inverse root degree; the index vectors untouched -/

theorem dinv2 (c : Dev nD) : W2 m ρ c (Proc.devRef .tc main_v14) = dinv (F := F) (m ((c : Thread nD τ).loc main_arg1)) :=
  dinv_step (W1 m ρ c) _ (pos1 m ρ c) (rsqrt1 m ρ c) (zero1 m ρ c)
theorem src2 (c : Dev nD) : W2 m ρ c (Proc.devRef .tc main_v3) = srcOf (F := F) (m ((c : Thread nD τ).loc main_arg1)) :=
  (keep_src_where (W1 m ρ c)).trans (src1 m ρ c)
theorem dst2 (c : Dev nD) : W2 m ρ c (Proc.devRef .tc main_v6) = dstOf (F := F) (m ((c : Thread nD τ).loc main_arg1)) :=
  (keep_dst_where (W1 m ρ c)).trans (dst1 m ρ c)

/-! ## At the first product's entry: the edge weights; sources, targets and the argument arrays as they were -/

theorem norm3 (c : Dev nD) : W3 m ρ c (Proc.devRef .tc main_v29) = norm (F := F) (m ((c : Thread nD τ).loc main_arg1)) :=
  norm_step (W2 m ρ c) _ (dinv2 m ρ c) (src2 m ρ c) (dst2 m ρ c)
theorem src3 (c : Dev nD) : W3 m ρ c (Proc.devRef .tc main_v3) = srcOf (F := F) (m ((c : Thread nD τ).loc main_arg1)) :=
  (keep_src_pre (W2 m ρ c)).trans (src2 m ρ c)
theorem dst3 (c : Dev nD) : W3 m ρ c (Proc.devRef .tc main_v6) = dstOf (F := F) (m ((c : Thread nD τ).loc main_arg1)) :=
  (keep_dst_pre (W2 m ρ c)).trans (dst2 m ρ c)

theorem x3 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem w1_3 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem b1_3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
theorem w2_3 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem b2_3 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

/-! ## Across the first product: only its result array changes -/

theorem src4 (c : Dev nD) : W4 m ρ c (Proc.devRef .tc main_v3) = srcOf (F := F) (m ((c : Thread nD τ).loc main_arg1)) :=
  (W4_of_ne m ρ c main_v3 (by decide)).trans (src3 m ρ c)
theorem dst4 (c : Dev nD) : W4 m ρ c (Proc.devRef .tc main_v6) = dstOf (F := F) (m ((c : Thread nD τ).loc main_arg1)) :=
  (W4_of_ne m ρ c main_v6 (by decide)).trans (dst3 m ρ c)
theorem norm4 (c : Dev nD) : W4 m ρ c (Proc.devRef .tc main_v29) = norm (F := F) (m ((c : Thread nD τ).loc main_arg1)) :=
  (W4_of_ne m ρ c main_v29 (by decide)).trans (norm3 m ρ c)
theorem b1_4 (c : Dev nD) : W4 m ρ c (Proc.devRef .tc main_arg3) = m ((c : Thread nD τ).loc main_arg3) :=
  (W4_of_ne m ρ c main_arg3 (by decide)).trans (b1_3 m ρ c)
theorem w2_4 (c : Dev nD) : W4 m ρ c (Proc.devRef .tc main_arg4) = m ((c : Thread nD τ).loc main_arg4) :=
  (W4_of_ne m ρ c main_arg4 (by decide)).trans (w2_3 m ρ c)
theorem b2_4 (c : Dev nD) : W4 m ρ c (Proc.devRef .tc main_arg5) = m ((c : Thread nD τ).loc main_arg5) :=
  (W4_of_ne m ρ c main_arg5 (by decide)).trans (b2_3 m ρ c)

/-! ## At the second product's entry: the rectified first layer of whatever the first product left -/

theorem hidden6 (c : Dev nD) : W6 m ρ c (Proc.devRef .tc main_v47)
    = relu (F := F) (layer256 (F := F) (m ((c : Thread nD τ).loc main_arg1)) (m ((c : Thread nD τ).loc main_arg3)) (W4 m ρ c (Proc.devRef .tc main_v30))) :=
  hidden_step (W4 m ρ c) _ _ (src4 m ρ c) (dst4 m ρ c) (norm4 m ρ c) (b1_4 m ρ c)
theorem src6 (c : Dev nD) : W6 m ρ c (Proc.devRef .tc main_v3) = srcOf (F := F) (m ((c : Thread nD τ).loc main_arg1)) :=
  (keep_src_mid (W4 m ρ c)).trans (src4 m ρ c)
theorem dst6 (c : Dev nD) : W6 m ρ c (Proc.devRef .tc main_v6) = dstOf (F := F) (m ((c : Thread nD τ).loc main_arg1)) :=
  (keep_dst_mid (W4 m ρ c)).trans (dst4 m ρ c)
theorem norm6 (c : Dev nD) : W6 m ρ c (Proc.devRef .tc main_v29) = norm (F := F) (m ((c : Thread nD τ).loc main_arg1)) :=
  (keep_norm_mid (W4 m ρ c)).trans (norm4 m ρ c)
theorem w2_6 (c : Dev nD) : W6 m ρ c (Proc.devRef .tc main_arg4) = m ((c : Thread nD τ).loc main_arg4) :=
  (keep_w2_mid (W4 m ρ c)).trans (w2_4 m ρ c)
theorem b2_6 (c : Dev nD) : W6 m ρ c (Proc.devRef .tc main_arg5) = m ((c : Thread nD τ).loc main_arg5) :=
  (keep_b2_mid (W4 m ρ c)).trans (b2_4 m ρ c)

/-! ## After the second product: the same layer at width 64 of whatever that product left -/

theorem result8 (c : Dev nD) : W8 m ρ c (Proc.devRef .tc main_v64)
    = layer64 (F := F) (m ((c : Thread nD τ).loc main_arg1)) (m ((c : Thread nD τ).loc main_arg5)) (W7 m ρ c (Proc.devRef .tc main_v48)) :=
  result_step (W7 m ρ c) _ _ ((W7_of_ne m ρ c main_v3 (by decide)).trans (src6 m ρ c)) ((W7_of_ne m ρ c main_v6 (by decide)).trans (dst6 m ρ c))
    ((W7_of_ne m ρ c main_v29 (by decide)).trans (norm6 m ρ c)) ((W7_of_ne m ρ c main_arg5 (by decide)).trans (b2_6 m ρ c))

end Cert.KernelIdeal.HostStages

end
-- ==== Proof.Product256.lean ====
/-
  The first product: the node features times the first weight matrix, [50000, 256] · [256, 256], computed 2000 rows at a time.

  The body loads a [2000, 256] block of the left factor and the whole [256, 256] right factor, multiplies them into a zero
  accumulator and stores the [2000, 256] result. At the ideal family the change of float format before the product is the identity
  and a product into a zero accumulator is the plain sum over the 256 contracted positions, so entry (p, q) of the stored block is
      Σ_k  left (p, k) · right (k, q).
  Grid point t's left block and result block are rows 2000·t … 2000·t + 1999 (all columns) and its right block is the whole
  matrix, so that entry is entry (2000·t + p, q) of the product of the whole arrays. The 25 blocks tile the 50000 rows, hence
  after the region the result array IS the product of the arrays the region found.
-/
import proofs.«112327_j81174881894972_1_alg».proof.Proof.Gen.KernelIdeal.Frame
import proofs.«112327_j81174881894972_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product256

open Cert.KernelIdeal Cert.KernelIdeal.Gen Idealize.ShloMosaic Idealize.ShloMosaic.TcCoe Idealize.ShloMosaic.ValueIdx Idealize.SL.Sem
open Idealize.ShloMosaic.Pipeline (Dat)

/-! ## The product's operand positions: output entry (p, q) and contracted position k read left (p, k) and right (k, q) -/

theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_contr (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_contr (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The stored value at (p, q): the sum over the contracted position of the two loaded blocks' entries. -/
theorem pay_apply (x0 : Vec Ideal S2000x256 .f32) (x1 : Vec Ideal S256x256 .f32) (p : Fin 2000) (q : Fin 256) :
    k0_pay1 (F := Ideal) x0 x1 (ix2 p q) = ∑ k : Fin 256, x0 (ix2 p k) * x1 (ix2 k q) := by
  unfold k0_pay1
  show FloatOps.matmul dot_S2000x256_S256x256_S2000x256_1_0_0_1_n_n none (truncf (F := Ideal) .bf16 x0 _) (truncf (F := Ideal) .bf16 x1 _) (constant S2000x256 .f32 0x00000000#32) (ix2 p q) = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_row _ _
    | ⟨1, _⟩ => exact (lhs_contr _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_contr _ _).trans hk
    | ⟨1, _⟩ => exact rhs_col _ _)
  rw [el, er]
  rfl

/-- One entry of the stored block is one entry of the whole product, once each block entry the sum reads is known to be the
    whole arrays' entry in the same row (left factor) or the same column (right factor). -/
theorem point_eq (X : (⟨S50000x256, .f32⟩ : BufTy).Contents (Elt Ideal)) (Wm : (⟨S256x256, .f32⟩ : BufTy).Contents (Elt Ideal))
    (x0 : Vec Ideal S2000x256 .f32) (x1 : Vec Ideal S256x256 .f32) (j : S2000x256.Idx) (i : S50000x256.Idx)
    (h0 : ∀ k : Fin 256, x0 (ix2 (⟨(j 0).val, idx2_lt0 j⟩ : Fin 2000) k) = X (ix2 (⟨(i 0).val, idx2_lt0 i⟩ : Fin 50000) k))
    (h1 : ∀ k : Fin 256, x1 (ix2 k (⟨(j 1).val, idx2_lt1 j⟩ : Fin 256)) = Wm (ix2 k (⟨(i 1).val, idx2_lt1 i⟩ : Fin 256))) :
    k0_pay1 (F := Ideal) x0 x1 j = Cert.Gcn.mm256 X Wm i := by
  have hj : j = ix2 (⟨(j 0).val, idx2_lt0 j⟩ : Fin 2000) (⟨(j 1).val, idx2_lt1 j⟩ : Fin 256) := by
    funext a; match a with | ⟨0, _⟩ => rfl | ⟨1, _⟩ => rfl
  refine (congrArg (k0_pay1 (F := Ideal) x0 x1) hj).trans ((pay_apply x0 x1 _ _).trans ?_)
  unfold Cert.Gcn.mm256 Cert.Gcn.mm256At
  exact Finset.sum_congr rfl fun k _ => by rw [h0 k, h1 k]

/-! ## Where the blocks sit, and that they tile the result -/

theorem hz : (![0, 0] : Fin 2 → Nat) = fun _ => 0 := funext fun a => by fin_cases a <;> rfl

/-- At every one of the 25 grid points: the left factor's block and the result's block are the same 2000 rows, rows 2000·t onwards,
    over all columns; the right factor's block is the whole matrix. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

/-- What grid point `t` writes back is block `t` of the product of the two arrays the region found. -/
theorem flushed_eq (c : Dev nD) (t : Fin cfg0.N) :
    (dat0 (F := Ideal) V c).flushed 2 t = ((cfg0.win 2).blk t).view.read (Elt Ideal) (Cert.Gcn.mm256 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S2000x256) hz, View.ld_unit_zero (S := S256x256) hz]
  obtain ⟨e0, e1, e2, e3, e4, e5⟩ := idx_facts t
  funext j
  show k0_pay1 (F := Ideal) (iblk0 V c 0 t) (iblk0 V c 1 t) j = Cert.Gcn.mm256 (V c main_arg0) (V c main_arg2) (((cfg0.win 2).blk t).view.emb j)
  refine point_eq (V c main_arg0) (V c main_arg2) (iblk0 V c 0 t) (iblk0 V c 1 t) j (((cfg0.win 2).blk t).view.emb j) (fun k => ?_) (fun k => ?_)
  · show V c main_arg0 (((cfg0.win 0).blk t).view.emb (ix2 (⟨(j 0).val, idx2_lt0 j⟩ : Fin 2000) k)) = V c main_arg0 _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · show V c main_arg2 (((cfg0.win 1).blk t).view.emb (ix2 k (⟨(j 1).val, idx2_lt1 j⟩ : Fin 256))) = V c main_arg2 _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An index of the result array lies in point `t`'s block exactly when, on each axis, its coordinate lies in the block's range. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The 25 blocks of 2000 rows fill the 50000 rows: row `r` lies in the block of point `r / 2000`. -/
theorem cover (i : S50000x256.Idx) : ∃ t : Fin cfg0.N, (cfg0.win 2).flush t = true ∧ i ∈ ((cfg0.win 2).blk t).view.set := by
  have hi0 : (i 0).val < 50000 := idx2_lt0 i
  have hi1 : (i 1).val < 256 := idx2_lt1 i
  have hN : cfg0.N = 25 := N_0
  refine ⟨⟨(i 0).val / 2000, by rw [hN]; omega⟩, flush0_2 _, ?_⟩
  obtain ⟨-, -, -, -, e4, e5⟩ := idx_facts ⟨(i 0).val / 2000, by rw [hN]; omega⟩
  rw [mem_blk]
  intro a
  match a with
  | ⟨0, _⟩ => show win0_2.index _ (0 : Fin 2) * 2000 ≤ (i 0).val ∧ (i 0).val < win0_2.index _ (0 : Fin 2) * 2000 + 2000; rw [e5]; show (i 0).val / 2000 * 2000 ≤ (i 0).val ∧ (i 0).val < (i 0).val / 2000 * 2000 + 2000; omega
  | ⟨1, _⟩ => show win0_2.index _ (1 : Fin 2) * 256 ≤ (i 1).val ∧ (i 1).val < win0_2.index _ (1 : Fin 2) * 256 + 256; rw [e4]; omega

/-- After the first region the result array holds the product of the two arrays the region found. -/
theorem product (c : Dev nD) : (dat0 (F := Ideal) V c).arrAt 2 cfg0.N = Cert.Gcn.mm256 (V c main_arg0) (V c main_arg2) :=
  (dat0 (F := Ideal) V c).arrAt_eq_of_cover 2 (Cert.Gcn.mm256 (V c main_arg0) (V c main_arg2)) (fun t _ => flushed_eq V c t) cover

end Cert.KernelIdeal.Product256

end
-- ==== Proof.Product64.lean ====
/-
  The second product: the rectified first layer times the second weight matrix, [50000, 256] · [256, 64], computed 2000 rows at a time.
  (The body first re-reads its left block at its own shape, a cast that changes nothing.)

  The body loads a [2000, 256] block of the left factor and the whole [256, 64] right factor, multiplies them into a zero
  accumulator and stores the [2000, 64] result. At the ideal family the change of float format before the product is the identity
  and a product into a zero accumulator is the plain sum over the 256 contracted positions, so entry (p, q) of the stored block is
      Σ_k  left (p, k) · right (k, q).
  Grid point t's left block and result block are rows 2000·t … 2000·t + 1999 (all columns) and its right block is the whole
  matrix, so that entry is entry (2000·t + p, q) of the product of the whole arrays. The 25 blocks tile the 50000 rows, hence
  after the region the result array IS the product of the arrays the region found.
-/
import proofs.«112327_j81174881894972_1_alg».proof.Proof.Gen.KernelIdeal.Frame
import proofs.«112327_j81174881894972_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product64

open Cert.KernelIdeal Cert.KernelIdeal.Gen Idealize.ShloMosaic Idealize.ShloMosaic.TcCoe Idealize.ShloMosaic.ValueIdx Idealize.SL.Sem
open Idealize.ShloMosaic.Pipeline (Dat)

/-! ## The product's operand positions: output entry (p, q) and contracted position k read left (p, k) and right (k, q) -/

theorem lhs_row (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_contr (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs_contr (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs_col (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- The stored value at (p, q): the sum over the contracted position of the two loaded blocks' entries. -/
theorem pay_apply (x0 : Vec Ideal S2000x256 .f32) (x1 : Vec Ideal S256x64 .f32) (p : Fin 2000) (q : Fin 64) :
    k1_pay1 (F := Ideal) x0 x1 (ix2 p q) = ∑ k : Fin 256, x0 (ix2 p k) * x1 (ix2 k q) := by
  unfold k1_pay1
  show FloatOps.matmul dot_S2000x256_S256x64_S2000x64_1_0_0_1_n_n none (truncf (F := Ideal) .bf16 (shapeCast S2000x256 x0 _) _) (truncf (F := Ideal) .bf16 x1 _) (constant S2000x64 .f32 0x00000000#32) (ix2 p q) = _
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p q) ((ValueIdx.contrEquiv1 dot_S2000x256_S256x64_S2000x64_1_0_0_1_n_n 256 rfl rfl).symm k) = ix2 p k := funext fun a => Fin.ext (by
    match a with
    | ⟨0, _⟩ => exact lhs_row _ _
    | ⟨1, _⟩ => exact (lhs_contr _ _).trans hk)
  have er : dot_S2000x256_S256x64_S2000x64_1_0_0_1_n_n.rhsIdx (ix2 p q) ((ValueIdx.contrEquiv1 dot_S2000x256_S256x64_S2000x64_1_0_0_1_n_n 256 rfl rfl).symm k) = ix2 k q := funext fun a => Fin.ext (by
    match a with
    | ⟨0, _⟩ => exact (rhs_contr _ _).trans hk
    | ⟨1, _⟩ => exact rhs_col _ _)
  rw [el, er]
  rw [show shapeCast S2000x256 x0 _ = x0 from shapeCast_self x0 _]
  rfl

/-- One entry of the stored block is one entry of the whole product, once each block entry the sum reads is known to be the
    whole arrays' entry in the same row (left factor) or the same column (right factor). -/
theorem point_eq (X : (⟨S50000x256, .f32⟩ : BufTy).Contents (Elt Ideal)) (Wm : (⟨S256x64, .f32⟩ : BufTy).Contents (Elt Ideal))
    (x0 : Vec Ideal S2000x256 .f32) (x1 : Vec Ideal S256x64 .f32) (j : S2000x64.Idx) (i : S50000x64.Idx)
    (h0 : ∀ k : Fin 256, x0 (ix2 (⟨(j 0).val, idx2_lt0 j⟩ : Fin 2000) k) = X (ix2 (⟨(i 0).val, idx2_lt0 i⟩ : Fin 50000) k))
    (h1 : ∀ k : Fin 256, x1 (ix2 k (⟨(j 1).val, idx2_lt1 j⟩ : Fin 64)) = Wm (ix2 k (⟨(i 1).val, idx2_lt1 i⟩ : Fin 64))) :
    k1_pay1 (F := Ideal) x0 x1 j = Cert.Gcn.mm64 X Wm i := by
  have hj : j = ix2 (⟨(j 0).val, idx2_lt0 j⟩ : Fin 2000) (⟨(j 1).val, idx2_lt1 j⟩ : Fin 64) := by
    funext a; match a with | ⟨0, _⟩ => rfl | ⟨1, _⟩ => rfl
  refine (congrArg (k1_pay1 (F := Ideal) x0 x1) hj).trans ((pay_apply x0 x1 _ _).trans ?_)
  unfold Cert.Gcn.mm64 Cert.Gcn.mm64At
  exact Finset.sum_congr rfl fun k _ => by rw [h0 k, h1 k]

/-! ## Where the blocks sit, and that they tile the result -/

theorem hz : (![0, 0] : Fin 2 → Nat) = fun _ => 0 := funext fun a => by fin_cases a <;> rfl

/-- At every one of the 25 grid points: the left factor's block and the result's block are the same 2000 rows, rows 2000·t onwards,
    over all columns; the right factor's block is the whole matrix. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

variable (V : (c : Dev nD) → (b : Ref sig .tc) → Buf (Elt Ideal) ((c : Thread nD τ).loc b))

/-- What grid point `t` writes back is block `t` of the product of the two arrays the region found. -/
theorem flushed_eq (c : Dev nD) (t : Fin cfg1.N) :
    (dat1 (F := Ideal) V c).flushed 2 t = ((cfg1.win 2).blk t).view.read (Elt Ideal) (Cert.Gcn.mm64 (V c main_v47) (V c main_arg4)) := by
  show (cfg1.win 2).cut (grid1.coords t) ((dat1 (F := Ideal) V c).after 2 t) = _
  rw [after1_2]
  unfold out1_2
  rw [View.canon_unit_zero hz]
  simp only [View.ld_unit_zero (S := S2000x256) hz, View.ld_unit_zero (S := S256x64) hz]
  obtain ⟨e0, e1, e2, e3, e4, e5⟩ := idx_facts t
  funext j
  show k1_pay1 (F := Ideal) (iblk1 V c 0 t) (iblk1 V c 1 t) j = Cert.Gcn.mm64 (V c main_v47) (V c main_arg4) (((cfg1.win 2).blk t).view.emb j)
  refine point_eq (V c main_v47) (V c main_arg4) (iblk1 V c 0 t) (iblk1 V c 1 t) j (((cfg1.win 2).blk t).view.emb j) (fun k => ?_) (fun k => ?_)
  · show V c main_v47 (((cfg1.win 0).blk t).view.emb (ix2 (⟨(j 0).val, idx2_lt0 j⟩ : Fin 2000) k)) = V c main_v47 _
    refine congrArg (V c main_v47) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  · show V c main_arg4 (((cfg1.win 1).blk t).view.emb (ix2 k (⟨(j 1).val, idx2_lt1 j⟩ : Fin 64))) = V c main_arg4 _
    refine congrArg (V c main_arg4) (funext fun a => Fin.ext ?_)
    match a with
    | ⟨0, _⟩ => show win1_1.index t (0 : Fin 2) * 256 + 1 * k.val = k.val; omega
    | ⟨1, _⟩ => show win1_1.index t (1 : Fin 2) * 64 + 1 * (j 1).val = win1_2.index t (1 : Fin 2) * 64 + 1 * (j 1).val; omega

/-- An index of the result array lies in point `t`'s block exactly when, on each axis, its coordinate lies in the block's range. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v48).slice (win1_2.rect t)).set ↔ _
  rw [View.set_slice_whole, Rect.mem_set_unit]
  exact Iff.rfl

/-- The 25 blocks of 2000 rows fill the 50000 rows: row `r` lies in the block of point `r / 2000`. -/
theorem cover (i : S50000x64.Idx) : ∃ t : Fin cfg1.N, (cfg1.win 2).flush t = true ∧ i ∈ ((cfg1.win 2).blk t).view.set := by
  have hi0 : (i 0).val < 50000 := idx2_lt0 i
  have hi1 : (i 1).val < 64 := idx2_lt1 i
  have hN : cfg1.N = 25 := N_1
  refine ⟨⟨(i 0).val / 2000, by rw [hN]; omega⟩, flush1_2 _, ?_⟩
  obtain ⟨-, -, -, -, e4, e5⟩ := idx_facts ⟨(i 0).val / 2000, by rw [hN]; omega⟩
  rw [mem_blk]
  intro a
  match a with
  | ⟨0, _⟩ => show win1_2.index _ (0 : Fin 2) * 2000 ≤ (i 0).val ∧ (i 0).val < win1_2.index _ (0 : Fin 2) * 2000 + 2000; rw [e5]; show (i 0).val / 2000 * 2000 ≤ (i 0).val ∧ (i 0).val < (i 0).val / 2000 * 2000 + 2000; omega
  | ⟨1, _⟩ => show win1_2.index _ (1 : Fin 2) * 64 ≤ (i 1).val ∧ (i 1).val < win1_2.index _ (1 : Fin 2) * 64 + 64; rw [e4]; omega

/-- After the second region the result array holds the product of the two arrays the region found. -/
theorem product (c : Dev nD) : (dat1 (F := Ideal) V c).arrAt 2 cfg1.N = Cert.Gcn.mm64 (V c main_v47) (V c main_arg4) :=
  (dat1 (F := Ideal) V c).arrAt_eq_of_cover 2 (Cert.Gcn.mm64 (V c main_v47) (V c main_arg4)) (fun t _ => flushed_eq V c t) cover

end Cert.KernelIdeal.Product64

end
-- ==== Proof.KernelValue.lean ====
/-
  The kernel's run, read: the result array after the run is the network's function of the six argument arrays.

  The boundary contents of the kernel program are walked from the end back to the launch. The last host stretch applies the
  width-64 layer to what the second product left. The second product leaves, in its result array, the product of what the host
  had put in its left operand — the rectified width-256 layer of what the first product left — with the second weight matrix.
  The first product leaves the product of the node features with the first weight matrix, both still as launched. Every
  other array a stretch reads (sources, targets, edge weights, biases, the second weight matrix) is, at that boundary, what
  the first host stretch made of the edge array, or the argument as launched. Put together this is the specification's
  function, at the ideal family, where each product is the specification's sum.
-/
import proofs.«112327_j81174881894972_1_alg».proof.Proof.HostStages
import proofs.«112327_j81174881894972_1_alg».proof.Proof.Product256
import proofs.«112327_j81174881894972_1_alg».proof.Proof.Product64

set_option maxRecDepth 16384

noncomputable section

namespace Cert.KernelIdeal.KernelValue

open Cert.KernelIdeal Cert.KernelIdeal.Gen Cert.KernelIdeal.HostStages Idealize.ShloMosaic Idealize.ShloMosaic.TcCoe Idealize.SL.Sem
open Cert.Gcn

variable (m : (ℓ : Loc nD τ sig) → Buf (Elt Ideal) ℓ) (ρ : Dev nD → PrngReg)

/-- After the first product its result array holds x · W₁ of the arguments as launched. -/
theorem first_product (c : Dev nD) :
    W4 m ρ c (Proc.devRef .tc main_v30) = mm256 (m ((c : Thread nD τ).loc main_arg0)) (m ((c : Thread nD τ).loc main_arg2)) :=
  calc W4 m ρ c (Proc.devRef .tc main_v30)
    _ = (dat0 (F := Ideal) (V3 m ρ) c).arrAt 2 cfg0.N := W4_arr m ρ c 2
    _ = mm256 (V3 m ρ c main_arg0) (V3 m ρ c main_arg2) := Product256.product (V3 m ρ) c
    _ = mm256 (m ((c : Thread nD τ).loc main_arg0)) (m ((c : Thread nD τ).loc main_arg2)) := by
        rw [show V3 m ρ c main_arg0 = m ((c : Thread nD τ).loc main_arg0) from x3 m ρ c,
          show V3 m ρ c main_arg2 = m ((c : Thread nD τ).loc main_arg2) from w1_3 m ρ c]

/-- After the second product its result array holds (the second product's left operand as the host left it) · W₂. -/
theorem second_product (c : Dev nD) :
    W7 m ρ c (Proc.devRef .tc main_v48) = mm64 (W6 m ρ c (Proc.devRef .tc main_v47)) (m ((c : Thread nD τ).loc main_arg4)) :=
  calc W7 m ρ c (Proc.devRef .tc main_v48)
    _ = (dat1 (F := Ideal) (V6 m ρ) c).arrAt 2 cfg1.N := W7_arr m ρ c 2
    _ = mm64 (V6 m ρ c main_v47) (V6 m ρ c main_arg4) := Product64.product (V6 m ρ) c
    _ = mm64 (W6 m ρ c (Proc.devRef .tc main_v47)) (m ((c : Thread nD τ).loc main_arg4)) := by
        rw [show V6 m ρ c main_arg4 = m ((c : Thread nD τ).loc main_arg4) from w2_6 m ρ c]

/-- The result array after the run is the specification's function of the argument arrays. -/
theorem result (c : Dev nD) :
    W8 m ρ c (Proc.devRef .tc main_v64)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [result8 m ρ c, second_product m ρ c, hidden6 m ρ c, first_product m ρ c]
  rfl

end Cert.KernelIdeal.KernelValue

end
-- ==== Proof.RefValue.lean ====
/-
  The reference's result, read: it is the network's function of the six argument arrays.

  The reference's run ends with its result array at one composed term of the argument arrays. That term is the specification's
  chain of host operations, the same operations in the same order, with the host's own matrix product where the
  specification has its sum. At the ideal family the host's product of a [50000, 256] array with a [256, n] array is, at entry
  (r, c), the sum over the 256 contracted positions of left (r, k) · right (k, c): exactly the specification's product. So the
  term is the specification's function.
-/
import proofs.«112327_j81174881894972_1_alg».proof.Proof.RefRun
import proofs.«112327_j81174881894972_1_alg».proof.Proof.Gen.KernelIdeal
import proofs.«112327_j81174881894972_1_alg».proof.Proof.Spec
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ValueP Idealize.ShloMosaic Idealize.ShloMosaic.TcCoe Idealize.ShloMosaic.ValueIdx Idealize.SL.Sem

/-! ## The host's two products are the specification's sums -/

theorem lhs_row256 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem lhs_contr256 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
theorem rhs_contr256 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
theorem rhs_col256 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- The host's product of a [50000, 256] and a [256, 256] array is, entry by entry, the sum over the contracted position. -/
theorem dot256 (x : (⟨S50000x256, .f32⟩ : BufTy).Contents (Elt Ideal)) (w : (⟨S256x256, .f32⟩ : BufTy).Contents (Elt Ideal)) :
    Host.dotGeneral (F := Ideal) (φ₁ := .f32) (φ₂ := .f32) dot_S50000x256_S256x256_S50000x256_1_0_0_1_n_n none x w = Cert.Gcn.mm256 x w := by
  funext i
  simp only [Host.dotGeneral]
  rw [Ideal.dotGeneral_apply, ← Equiv.sum_comp (ValueIdx.contrEquiv1 dot_S50000x256_S256x256_S50000x256_1_0_0_1_n_n 256 rfl rfl).symm]
  unfold Cert.Gcn.mm256 Cert.Gcn.mm256At
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx i ((ValueIdx.contrEquiv1 dot_S50000x256_S256x256_S50000x256_1_0_0_1_n_n 256 rfl rfl).symm k) = ix2 (⟨(i 0).val, idx2_lt0 i⟩ : Fin 50000) k := funext fun a => Fin.ext (by
    match a with
    | ⟨0, _⟩ => exact lhs_row256 _ _
    | ⟨1, _⟩ => exact (lhs_contr256 _ _).trans hk)
  have er : dot_S50000x256_S256x256_S50000x256_1_0_0_1_n_n.rhsIdx i ((ValueIdx.contrEquiv1 dot_S50000x256_S256x256_S50000x256_1_0_0_1_n_n 256 rfl rfl).symm k) = ix2 k (⟨(i 1).val, idx2_lt1 i⟩ : Fin 256) := funext fun a => Fin.ext (by
    match a with
    | ⟨0, _⟩ => exact (rhs_contr256 _ _).trans hk
    | ⟨1, _⟩ => exact rhs_col256 _ _)
  rw [el, er]

theorem lhs_row64 (i : S50000x64.Idx) (q : dot_S50000x256_S256x64_S50000x64_1_0_0_1_n_n.contr.Idx) :
    (dot_S50000x256_S256x64_S50000x64_1_0_0_1_n_n.lhsIdx i q 0).val = (i 0).val := by
  unfold DotDims.lhsIdx
  rw [dif_neg (show ¬(0 : Fin S50000x256.rank) ∈ dot_S50000x256_S256x64_S50000x64_1_0_0_1_n_n.lhsBatch by decide), dif_pos (show (0 : Fin S50000x256.rank) ∈ dot_S50000x256_S256x64_S50000x64_1_0_0_1_n_n.lhsNonContracting by decide)]
  rfl
theorem lhs_contr64 (i : S50000x64.Idx) (q : dot_S50000x256_S256x64_S50000x64_1_0_0_1_n_n.contr.Idx) :
    (dot_S50000x256_S256x64_S50000x64_1_0_0_1_n_n.lhsIdx i q 1).val = (q ⟨0, by decide⟩).val :=
  dot_S50000x256_S256x64_S50000x64_1_0_0_1_n_n.lhsIdx_val_of_single rfl i q
theorem rhs_contr64 (i : S50000x64.Idx) (q : dot_S50000x256_S256x64_S50000x64_1_0_0_1_n_n.contr.Idx) :
    (dot_S50000x256_S256x64_S50000x64_1_0_0_1_n_n.rhsIdx i q 0).val = (q ⟨0, by decide⟩).val :=
  dot_S50000x256_S256x64_S50000x64_1_0_0_1_n_n.rhsIdx_val_of_single rfl i q
theorem rhs_col64 (i : S50000x64.Idx) (q : dot_S50000x256_S256x64_S50000x64_1_0_0_1_n_n.contr.Idx) :
    (dot_S50000x256_S256x64_S50000x64_1_0_0_1_n_n.rhsIdx i q 1).val = (i 1).val := by
  unfold DotDims.rhsIdx
  rw [dif_neg (show ¬(1 : Fin S256x64.rank) ∈ dot_S50000x256_S256x64_S50000x64_1_0_0_1_n_n.rhsBatch by decide), dif_pos (show (1 : Fin S256x64.rank) ∈ dot_S50000x256_S256x64_S50000x64_1_0_0_1_n_n.rhsNonContracting by decide)]
  rfl

/-- The host's product of a [50000, 256] and a [256, 64] array is, entry by entry, the sum over the contracted position. -/
theorem dot64 (x : (⟨S50000x256, .f32⟩ : BufTy).Contents (Elt Ideal)) (w : (⟨S256x64, .f32⟩ : BufTy).Contents (Elt Ideal)) :
    Host.dotGeneral (F := Ideal) (φ₁ := .f32) (φ₂ := .f32) dot_S50000x256_S256x64_S50000x64_1_0_0_1_n_n none x w = Cert.Gcn.mm64 x w := by
  funext i
  simp only [Host.dotGeneral]
  rw [Ideal.dotGeneral_apply, ← Equiv.sum_comp (ValueIdx.contrEquiv1 dot_S50000x256_S256x64_S50000x64_1_0_0_1_n_n 256 rfl rfl).symm]
  unfold Cert.Gcn.mm64 Cert.Gcn.mm64At
  refine Finset.sum_congr rfl fun k _ => ?_
  have hk := ValueIdx.contrEquiv1_symm_val dot_S50000x256_S256x64_S50000x64_1_0_0_1_n_n 256 rfl rfl k
  have el : dot_S50000x256_S256x64_S50000x64_1_0_0_1_n_n.lhsIdx i ((ValueIdx.contrEquiv1 dot_S50000x256_S256x64_S50000x64_1_0_0_1_n_n 256 rfl rfl).symm k) = ix2 (⟨(i 0).val, idx2_lt0 i⟩ : Fin 50000) k := funext fun a => Fin.ext (by
    match a with
    | ⟨0, _⟩ => exact lhs_row64 _ _
    | ⟨1, _⟩ => exact (lhs_contr64 _ _).trans hk)
  have er : dot_S50000x256_S256x64_S50000x64_1_0_0_1_n_n.rhsIdx i ((ValueIdx.contrEquiv1 dot_S50000x256_S256x64_S50000x64_1_0_0_1_n_n 256 rfl rfl).symm k) = ix2 k (⟨(i 1).val, idx2_lt1 i⟩ : Fin 64) := funext fun a => Fin.ext (by
    match a with
    | ⟨0, _⟩ => exact (rhs_contr64 _ _).trans hk
    | ⟨1, _⟩ => exact rhs_col64 _ _)
  rw [el, er]

/-! ## The composed term has the specification's shape, at any float family -/

variable {F : FTy → Type} [FloatOps F]

/-- The reference's result term is: the width-64 layer of the product with the second weight matrix of the rectified width-256
    layer of the product of the node features with the first weight matrix. -/
theorem shape (m : (ℓ : Loc nD τ sig) → Buf (Elt F) ℓ) (c : Dev nD) :
    res_main_v64 (F := F) m c
      = Cert.Gcn.layer64 (F := F) (m ((c.tc : Thread nD τ).loc main_arg1)) (m ((c.tc : Thread nD τ).loc main_arg5))
          (Host.dotGeneral dot_S50000x256_S256x64_S50000x64_1_0_0_1_n_n none
            (Cert.Gcn.relu (F := F) (Cert.Gcn.layer256 (F := F) (m ((c.tc : Thread nD τ).loc main_arg1)) (m ((c.tc : Thread nD τ).loc main_arg3))
              (Host.dotGeneral dot_S50000x256_S256x256_S50000x256_1_0_0_1_n_n none (m ((c.tc : Thread nD τ).loc main_arg0)) (m ((c.tc : Thread nD τ).loc main_arg2)))))
            (m ((c.tc : Thread nD τ).loc main_arg4))) := by
  unfold res_main_v64
  rfl

/-! ## At the ideal family -/

/-- The reference's result is the specification's function of its argument arrays. -/
theorem result (m : (ℓ : Loc nD τ sig) → Buf (Elt Ideal) ℓ) (c : Dev nD) :
    res_main_v64 (F := Ideal) m c
      = Cert.Gcn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [shape, dot256, dot64]
  rfl

end Cert.ReferenceIdeal.RefValue

end
-- ==== Proof.lean ====
/-
  The certificate: the kernel program and the reference compute the same two-layer graph convolution.

  The two programs differ in one thing only. Where the reference multiplies by a weight matrix on the host, the kernel program runs a
  grid of 25 blocks, each multiplying 2000 rows of the left factor (narrowed to a shorter float format first) by the whole
  weight matrix into a zero accumulator. At the ideal family the narrowing is the identity and both products are, entry by
  entry, the sum over the 256 contracted positions; the blocks tile the rows; so each grid leaves in its result array exactly
  the host's product. Everything around the two products — building the edge list with its self-loops, the degrees, the edge
  weights, the gathers, scatter-adds, biases and the rectifier — is the same sequence of operations in both programs, and
  is carried through as it stands. No law of arithmetic beyond "a product is that sum" is used, so the finiteness of the
  inputs is never called on.

  The three frames: the kernel program's and its idealization's are the generated frame certificates; the reference has no kernel,
  and its frame is its run with the result forgotten. The idealization rewrote nothing, so there is nothing to preserve.
-/
import proofs.«112327_j81174881894972_1_alg».proof.Defs
import proofs.«112327_j81174881894972_1_alg».proof.Proof.Gen.Kernel
import proofs.«112327_j81174881894972_1_alg».proof.Proof.Gen.Kernel.Frame
import proofs.«112327_j81174881894972_1_alg».proof.Proof.Gen.KernelIdeal
import proofs.«112327_j81174881894972_1_alg».proof.Proof.Gen.KernelIdeal.Frame
import proofs.«112327_j81174881894972_1_alg».proof.Proof.Gen.ReferenceIdeal
import proofs.«112327_j81174881894972_1_alg».proof.Proof.Gen.Pre_finite_inputs
import proofs.«112327_j81174881894972_1_alg».proof.Proof.KernelRun
import proofs.«112327_j81174881894972_1_alg».proof.Proof.KernelValue
import proofs.«112327_j81174881894972_1_alg».proof.Proof.RefRun
import proofs.«112327_j81174881894972_1_alg».proof.Proof.RefValue

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

theorem frame_reference_ideal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both runs end with the result array at the specification's function of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result m' c, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
